-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S256x256 : Shape := ⟨2, ![256, 256]⟩
abbrev S50000x128 : Shape := ⟨2, ![50000, 128]⟩
abbrev S1x50000x128 : Shape := ⟨3, ![1, 50000, 128]⟩
abbrev S2x50000x128 : Shape := ⟨3, ![2, 50000, 128]⟩

abbrev nBuf : Space → Nat
  | .hbm => 98
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S256x256, .f32⟩
  | .hbm, ⟨72, _⟩ => ⟨S256, .f32⟩
  | .hbm, ⟨73, _⟩ => ⟨S50000x256, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x256, .f32⟩
  | .hbm, ⟨83, _⟩ => ⟨S850000x1, .f32⟩
  | .hbm, ⟨84, _⟩ => ⟨S850000x256, .f32⟩
  | .hbm, ⟨85, _⟩ => ⟨S850000x256, .f32⟩
  | .hbm, ⟨86, _⟩ => ⟨S_, .f32⟩
  | .hbm, ⟨87, _⟩ => ⟨S50000x256, .f32⟩
  | .hbm, ⟨88, _⟩ => ⟨S850000x1, .i32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S50000x128, .f32⟩
  | .hbm, ⟨94, _⟩ => ⟨S50000x128, .f32⟩
  | .hbm, ⟨95, _⟩ => ⟨S1x50000x128, .f32⟩
  | .hbm, ⟨96, _⟩ => ⟨S1x50000x128, .f32⟩
  | .hbm, ⟨97, _⟩ => ⟨S2x50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S256x128_S256x128_S256x256_d1 : Shape.Concatenates [S256x128, S256x128] S256x256 1
  concatenates_S128_S128_S256_d0 : Shape.Concatenates [S128, S128] S256 0
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S50000x256_S50000x128_0_0 : S50000x256.Slices ![0, 0] S50000x128
  slices_S50000x256_S50000x128_0_128 : S50000x256.Slices ![0, 128] S50000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 180
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S256x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x256, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S850000, .f32⟩
  | 127 => ⟨S_, .f32⟩
  | _ => ⟨S50000x512, .f32⟩

abbrev hbmTy0_1 (i : Nat) : BufTy := match i % 128 with
  | 0 => ⟨S50000, .f32⟩
  | 1 => ⟨S850000x1, .i32⟩
  | 2 => ⟨S50000, .f32⟩
  | 3 => ⟨S_, .f32⟩
  | 4 => ⟨S50000, .f32⟩
  | 5 => ⟨S50000, .i1⟩
  | 6 => ⟨S50000, .f32⟩
  | 7 => ⟨S_, .f32⟩
  | 8 => ⟨S_, .f32⟩
  | 9 => ⟨S50000, .f32⟩
  | 10 => ⟨S50000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x1, .f32⟩
  | 40 => ⟨S850000x128, .f32⟩
  | 41 => ⟨S850000x128, .f32⟩
  | 42 => ⟨S_, .f32⟩
  | 43 => ⟨S50000x128, .f32⟩
  | 44 => ⟨S850000x1, .i32⟩
  | 45 => ⟨S50000x128, .f32⟩
  | 46 => ⟨S1x128, .f32⟩
  | 47 => ⟨S50000x128, .f32⟩
  | 48 => ⟨S50000x128, .f32⟩
  | 49 => ⟨S1x50000x128, .f32⟩
  | 50 => ⟨S1x50000x128, .f32⟩
  | 51 => ⟨S2x50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_call3_v0 : Ref sig .tc := ⟨.hbm, 136, rfl⟩
abbrev main_call3_v1 : Ref sig .tc := ⟨.hbm, 137, rfl⟩
abbrev main_v96 : Ref sig .tc := ⟨.hbm, 138, rfl⟩
abbrev main_c_24 : Ref sig .tc := ⟨.hbm, 139, rfl⟩
abbrev main_v97 : Ref sig .tc := ⟨.hbm, 140, rfl⟩
abbrev main_v98 : Ref sig .tc := ⟨.hbm, 141, rfl⟩
abbrev main_c_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_26 : Ref sig .tc := ⟨.hbm, 148, rfl⟩
abbrev main_v104 : Ref sig .tc := ⟨.hbm, 149, rfl⟩
abbrev main_v105 : Ref sig .tc := ⟨.hbm, 150, rfl⟩
abbrev main_c_27 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_c_29 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_30 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefStages.lean ====
/-
  The reference's host program read by stages.

  The reference applies one graph convolution three times. A convolution multiplies its input by a weight matrix, then
  AGGREGATES: for every edge e (the self-loops appended to the given edges) the source node's row of the product,
  scaled by the edge weight  norm e = dinv(src e) · dinv(dst e)  (dinv the inverse square root of a node's in-degree, 0
  for an isolated node), is added into the destination node's row of a zero array; last the bias row is added to every
  row. The aggregation does not look at the number of columns: `layer256` and `layer128` are the same stage at 256
  and at 128 columns, over any feature array. The hidden layer is the rectified first convolution (`hidden`), and the
  result stacks the two second-layer convolutions (`stack`).

  The three convolutions each rebuild the wrapped source column, the destination column and the edge weights from the
  edge list; the copies are the same operations on the same edge list, so they are equal by unfolding
  (`srcw_eq2`, `srcw_eq3`, `norm_eq2`, `norm_eq3`).
-/
import proofs.«142886_j60593398612125_1_alg».proof.Proof.RefRead

set_option maxRecDepth 16384

noncomputable section

namespace Cert.RefStages

open Cert.ReferenceIdeal Cert.ReferenceIdeal.Gen Cert.ReferenceIdeal.ReadP Idealize.ShloMosaic Idealize.ShloMosaic.TcCoe

variable {F : FTy → Type} [FloatOps F]

/-- One aggregation stage at 256 columns over a feature array `X`: each edge's source row of `X` (the source number
    wrapped the NumPy way), scaled by the edge's weight, added into the edge's destination row of a zero array; then the
    bias row `b` added to every row. -/
def layer256 (X : (⟨S50000x256, .f32⟩ : BufTy).Contents (Elt F)) (E : (⟨S2x800000, .i32⟩ : BufTy).Contents (Elt F)) (b : (⟨S256, .f32⟩ : BufTy).Contents (Elt F)) :
    (⟨S50000x256, .f32⟩ : BufTy).Contents (Elt F) :=
  addf (Host.scatterAdd scatter_S50000x256_S850000x1_S850000x256_1_0_0_1 (val_main_v41 (F := F)) (val_main_v42 (F := F) E)
      (mulf (Host.gather gather_S50000x256_S850000x1_S850000x256_1_0_n_n_0_1_1256 X (val_main_v36 (F := F) E)) (val_main_v39 (F := F) E)))
    (val_main_v45 (F := F) b)

/-- The same stage at 128 columns. -/
def layer128 (Y : (⟨S50000x128, .f32⟩ : BufTy).Contents (Elt F)) (E : (⟨S2x800000, .i32⟩ : BufTy).Contents (Elt F)) (b : (⟨S128, .f32⟩ : BufTy).Contents (Elt F)) :
    (⟨S50000x128, .f32⟩ : BufTy).Contents (Elt F) :=
  addf (Host.scatterAdd scatter_S50000x128_S850000x1_S850000x128_1_0_0_1 (val_main_v82 (F := F)) (val_main_v83 (F := F) E)
      (mulf (Host.gather gather_S50000x128_S850000x1_S850000x128_1_0_n_n_0_1_1128 Y (val_main_v77 (F := F) E)) (val_main_v80 (F := F) E)))
    (val_main_v86 (F := F) b)

/-- The hidden layer over the first product `X0`: the aggregation at 256 columns, rectified. -/
def hidden (X0 : (⟨S50000x256, .f32⟩ : BufTy).Contents (Elt F)) (E : (⟨S2x800000, .i32⟩ : BufTy).Contents (Elt F)) (b : (⟨S256, .f32⟩ : BufTy).Contents (Elt F)) :
    (⟨S50000x256, .f32⟩ : BufTy).Contents (Elt F) :=
  maximumf (layer256 X0 E b) (val_main_call1_v0 (F := F))

/-- Two [50000, 128] arrays stacked along a new leading axis. -/
def stack (A B : (⟨S50000x128, .f32⟩ : BufTy).Contents (Elt F)) : (⟨S2x50000x128, .f32⟩ : BufTy).Contents (Elt F) :=
  concatenate S2x50000x128 0 [⟨S1x50000x128, (broadcastInDim S1x50000x128 ![1, 2] bcast_S50000x128_S1x50000x128_1_2 A)⟩,
    ⟨S1x50000x128, (broadcastInDim S1x50000x128 ![1, 2] bcast_S50000x128_S1x50000x128_1_2 B)⟩]
    concatenates_S1x50000x128_S1x50000x128_S2x50000x128_d0

variable (x0 : (⟨S50000x512, .f32⟩ : BufTy).Contents (Elt F)) (E : (⟨S2x800000, .i32⟩ : BufTy).Contents (Elt F)) (x2 : (⟨S512x256, .f32⟩ : BufTy).Contents (Elt F))
  (x3 : (⟨S256, .f32⟩ : BufTy).Contents (Elt F)) (x4 : (⟨S256x128, .f32⟩ : BufTy).Contents (Elt F)) (x5 : (⟨S128, .f32⟩ : BufTy).Contents (Elt F))
  (x6 : (⟨S256x128, .f32⟩ : BufTy).Contents (Elt F)) (x7 : (⟨S128, .f32⟩ : BufTy).Contents (Elt F))

/-- The second convolution wraps the source numbers as the first does. -/
theorem srcw_eq2 : val_main_v76 (F := F) E = val_main_v35 (F := F) E := rfl
/-- So does the third. -/
theorem srcw_eq3 : val_main_v116 (F := F) E = val_main_v35 (F := F) E := rfl
/-- The second convolution's edge weights are the first's. -/
theorem norm_eq2 : val_main_v71 (F := F) E = val_main_v30 (F := F) E := rfl
/-- So are the third's. -/
theorem norm_eq3 : val_main_v111 (F := F) E = val_main_v30 (F := F) E := rfl

/-- The reference's hidden layer is `hidden` over its first product. -/
theorem ref_hidden : val_main_v47 (F := F) x0 E x2 x3 = hidden (val_main_v7 (F := F) x0 x2) E x3 := rfl

/-- The reference's first head is the 128-column stage over the hidden layer's product with the first head's weights. -/
theorem ref_head1 : val_main_v87 (F := F) x0 E x2 x3 x4 x5 = layer128 (val_main_v48 (F := F) x0 E x2 x3 x4) E x5 := rfl

/-- The second head likewise, with the second head's weights and bias. -/
theorem ref_head2 : val_main_v127 (F := F) x0 E x2 x3 x6 x7 = layer128 (val_main_v88 (F := F) x0 E x2 x3 x6) E x7 := rfl

/-- The reference's result stacks the two heads. -/
theorem ref_out : val_main_v130 (F := F) x0 E x2 x3 x4 x5 x6 x7
    = stack (val_main_v87 (F := F) x0 E x2 x3 x4 x5) (val_main_v127 (F := F) x0 E x2 x3 x6 x7) := rfl

end Cert.RefStages

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.KernelFold.lean ====
/-
  The kernel program's buffers, boundary by boundary.

  The program's @main is seven stretches of host operations around two matmul regions, and the contents of its buffers
  at each boundary are a fold from the launch memory (`Gen.W0` … `Gen.W9`). Here the fold is read, one stretch at a
  time, at the buffers the result depends on; what a stretch's inputs hold when it starts is a hypothesis about its
  entry contents, which are otherwise a variable. Before the first region the host builds, from the edge list `E`, the
  source and destination node of every edge (self-loops appended), the in-degrees' inverse square roots, and the edge
  weights: the same operations as the reference's first stages, so those buffers hold the reference's stage functions of
  `E` (`W3_src`, `W3_dst`, `W3_norm`). The first region leaves its product in its output array (`W4_prod`),
  everything else as it was. Between the regions the host aggregates that product at 256 columns, adds the bias and
  rectifies — `RefStages.hidden` over the product (`W7_hidden`) — and joins the two heads' weight matrices side by side
  and their biases end to end (`W7_wcat`, `W7_bcat`). The second region leaves its product (`W8_prod`). After it the
  host aggregates once more at 256 columns over the joined bias, cuts the result into its left and right 128 columns,
  and stacks the two halves (`W9_out`).
-/
import proofs.«142886_j60593398612125_1_alg».proof.Proof.Gen.KernelIdeal.Frame
import proofs.«142886_j60593398612125_1_alg».proof.Proof.RefStages
import proofs.«142886_j60593398612125_1_alg».proof.Proof.LibPlainOps
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP Cert.RefStages

variable {F : FTy → Type} [FloatOps F]
variable (m : (ℓ : Loc nD τ sig) → Buf (Elt F) ℓ) (ρ : Dev nD → PrngReg)

/-- A buffer that no operation of a stretch writes holds after the stretch what it held before. -/
macro "stretch_keeps" : tactic => `(tactic|
  exact StableHlo.after_of_forall_not_mem _ _ (List.forall_iff_forall_mem.mp (by
    simp only [hostOps0, hostOps0_1, hostOps0_2, hostOps1, hostOps1_1, hostOps1_2, hostOps2, List.flatten_cons, List.flatten_nil,
      List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The operations of a stretch laid open, an outlined function's operations as plain ones. -/
macro "open_stretches" : tactic => `(tactic|
  simp only [hostOps0, hostOps0_1, hostOps0_2, hostOps1, hostOps1_1, hostOps1_2, hostOps2,
    Cert.PlainOps.tnullary_eq, Cert.PlainOps.tunary_eq, Cert.PlainOps.tbinary_eq, Cert.PlainOps.tternary_eq])

/-! ## The first stretch: edge endpoints, in-degrees -/

/-- The source node of every edge, self-loops appended. -/
theorem W1_src (c : Dev nD) : W1 m ρ c (Proc.devRef .tc main_v3) = val_main_v3 (F := F) (m ((c : Thread nD τ).loc main_arg1)) := by
  show StableHlo.after hostOps0 (W0 m ρ c) (Proc.devRef .tc main_v3) = _
  have eE : W0 m ρ c (Proc.devRef .tc main_arg1) = (m ((c : Thread nD τ).loc main_arg1)) := rfl
  generalize W0 m ρ c = V at eE ⊢
  open_stretches
  after_results
  rw [eE]
  rfl

/-- The destination node of every edge, self-loops appended. -/
theorem W1_dst (c : Dev nD) : W1 m ρ c (Proc.devRef .tc main_v6) = val_main_v6 (F := F) (m ((c : Thread nD τ).loc main_arg1)) := by
  show StableHlo.after hostOps0 (W0 m ρ c) (Proc.devRef .tc main_v6) = _
  have eE : W0 m ρ c (Proc.devRef .tc main_arg1) = (m ((c : Thread nD τ).loc main_arg1)) := rfl
  generalize W0 m ρ c = V at eE ⊢
  open_stretches
  after_results
  rw [eE]
  rfl

/-- Which nodes have an incoming edge. -/
theorem W1_pos (c : Dev nD) : W1 m ρ c (Proc.devRef .tc main_v12) = val_main_v13 (F := F) (m ((c : Thread nD τ).loc main_arg1)) := by
  show StableHlo.after hostOps0 (W0 m ρ c) (Proc.devRef .tc main_v12) = _
  have eE : W0 m ρ c (Proc.devRef .tc main_arg1) = (m ((c : Thread nD τ).loc main_arg1)) := rfl
  generalize W0 m ρ c = V at eE ⊢
  open_stretches
  after_results
  rw [eE]
  rfl

/-- The inverse square root of every node's in-degree. -/
theorem W1_rsq (c : Dev nD) : W1 m ρ c (Proc.devRef .tc main_v13) = val_main_v14 (F := F) (m ((c : Thread nD τ).loc main_arg1)) := by
  show StableHlo.after hostOps0 (W0 m ρ c) (Proc.devRef .tc main_v13) = _
  have eE : W0 m ρ c (Proc.devRef .tc main_arg1) = (m ((c : Thread nD τ).loc main_arg1)) := rfl
  generalize W0 m ρ c = V at eE ⊢
  open_stretches
  after_results
  rw [eE]
  rfl

/-- The zero an isolated node takes instead. -/
theorem W1_zero (c : Dev nD) : W1 m ρ c (Proc.devRef .tc main_cst_2) = val_main_cst_2 (F := F) := by
  show StableHlo.after hostOps0 (W0 m ρ c) (Proc.devRef .tc main_cst_2) = _
  generalize W0 m ρ c = V
  open_stretches
  after_results
  rfl

/-! ## The second stretch: dinv -/

/-- dinv: the inverse square root of the in-degree where it is positive, zero elsewhere. -/
theorem W2_dinv (c : Dev nD) : W2 m ρ c (Proc.devRef .tc main_v14) = val_main_v15 (F := F) (m ((c : Thread nD τ).loc main_arg1)) := by
  show StableHlo.after hostOps0_1 (W1 m ρ c) (Proc.devRef .tc main_v14) = _
  have e1 := W1_pos m ρ c
  have e2 := W1_rsq m ρ c
  have e3 := W1_zero m ρ c
  generalize W1 m ρ c = V at e1 e2 e3 ⊢
  open_stretches
  after_results
  rw [e1, e2, e3]
  rfl

theorem W2_src (c : Dev nD) : W2 m ρ c (Proc.devRef .tc main_v3) = val_main_v3 (F := F) (m ((c : Thread nD τ).loc main_arg1)) :=
  calc W2 m ρ c (Proc.devRef .tc main_v3)
    _ = W1 m ρ c (Proc.devRef .tc main_v3) := by stretch_keeps
    _ = _ := W1_src m ρ c
theorem W2_dst (c : Dev nD) : W2 m ρ c (Proc.devRef .tc main_v6) = val_main_v6 (F := F) (m ((c : Thread nD τ).loc main_arg1)) :=
  calc W2 m ρ c (Proc.devRef .tc main_v6)
    _ = W1 m ρ c (Proc.devRef .tc main_v6) := by stretch_keeps
    _ = _ := W1_dst m ρ c

/-! ## The third stretch: edge weights -/

set_option maxHeartbeats 1000000 in
/-- The edge weights  dinv(src) · dinv(dst) , the node numbers wrapped the NumPy way. -/
theorem W3_norm (c : Dev nD) : W3 m ρ c (Proc.devRef .tc main_v29) = val_main_v30 (F := F) (m ((c : Thread nD τ).loc main_arg1)) := by
  show StableHlo.after hostOps0_2 (W2 m ρ c) (Proc.devRef .tc main_v29) = _
  have e1 := W2_dinv m ρ c
  have e2 := W2_src m ρ c
  have e3 := W2_dst m ρ c
  generalize W2 m ρ c = V at e1 e2 e3 ⊢
  open_stretches
  after_results
  rw [e1, e2, e3]
  rfl

theorem W3_src (c : Dev nD) : W3 m ρ c (Proc.devRef .tc main_v3) = val_main_v3 (F := F) (m ((c : Thread nD τ).loc main_arg1)) :=
  calc W3 m ρ c (Proc.devRef .tc main_v3)
    _ = W2 m ρ c (Proc.devRef .tc main_v3) := by stretch_keeps
    _ = _ := W2_src m ρ c
theorem W3_dst (c : Dev nD) : W3 m ρ c (Proc.devRef .tc main_v6) = val_main_v6 (F := F) (m ((c : Thread nD τ).loc main_arg1)) :=
  calc W3 m ρ c (Proc.devRef .tc main_v6)
    _ = W2 m ρ c (Proc.devRef .tc main_v6) := by stretch_keeps
    _ = _ := W2_dst m ρ c

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl

/-! ## After the first region: its product in its output array, every other buffer as before -/

theorem W4_prod (c : Dev nD) : W4 m ρ c (Proc.devRef .tc main_v30) = (dat0 (V3 m ρ) c).arrAt 2 cfg0.N := W4_arr m ρ c 2
theorem W4_src (c : Dev nD) : W4 m ρ c (Proc.devRef .tc main_v3) = val_main_v3 (F := F) (m ((c : Thread nD τ).loc main_arg1)) :=
  (W4_of_ne m ρ c main_v3 (by decide)).trans (W3_src m ρ c)
theorem W4_dst (c : Dev nD) : W4 m ρ c (Proc.devRef .tc main_v6) = val_main_v6 (F := F) (m ((c : Thread nD τ).loc main_arg1)) :=
  (W4_of_ne m ρ c main_v6 (by decide)).trans (W3_dst m ρ c)
theorem W4_norm (c : Dev nD) : W4 m ρ c (Proc.devRef .tc main_v29) = val_main_v30 (F := F) (m ((c : Thread nD τ).loc main_arg1)) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## Between the regions -/

set_option maxHeartbeats 1000000 in
/-- The first product aggregated at 256 columns, the bias added. -/
theorem W5_pre (c : Dev nD) : W5 m ρ c (Proc.devRef .tc main_v46) = layer256 (W4 m ρ c (Proc.devRef .tc main_v30)) (m ((c : Thread nD τ).loc main_arg1)) (m ((c : Thread nD τ).loc main_arg3)) := by
  show StableHlo.after hostOps1 (W4 m ρ c) (Proc.devRef .tc main_v46) = _
  have e1 := W4_src m ρ c
  have e2 := W4_dst m ρ c
  have e3 := W4_norm m ρ c
  have e4 := W4_arg3 m ρ c
  generalize W4 m ρ c = V at e1 e2 e3 e4 ⊢
  open_stretches
  after_results
  rw [e1, e2, e3, e4]
  rfl

/-- The hidden layer: that, rectified. -/
theorem W6_hidden (c : Dev nD) : W6 m ρ c (Proc.devRef .tc main_v47) = hidden (W4 m ρ c (Proc.devRef .tc main_v30)) (m ((c : Thread nD τ).loc main_arg1)) (m ((c : Thread nD τ).loc main_arg3)) := by
  show StableHlo.after hostOps1_1 (W5 m ρ c) (Proc.devRef .tc main_v47) = _
  have e1 := W5_pre m ρ c
  generalize W5 m ρ c = V at e1 ⊢
  open_stretches
  after_results
  rw [e1]
  rfl

theorem W7_hidden (c : Dev nD) : W7 m ρ c (Proc.devRef .tc main_v47) = hidden (W4 m ρ c (Proc.devRef .tc main_v30)) (m ((c : Thread nD τ).loc main_arg1)) (m ((c : Thread nD τ).loc main_arg3)) :=
  calc W7 m ρ c (Proc.devRef .tc main_v47)
    _ = W6 m ρ c (Proc.devRef .tc main_v47) := by stretch_keeps
    _ = _ := W6_hidden m ρ c

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by stretch_keeps
    _ = W4 m ρ c (Proc.devRef .tc main_arg4) := by stretch_keeps
    _ = _ := W4_arg4 m ρ c
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by stretch_keeps
    _ = W4 m ρ c (Proc.devRef .tc main_arg5) := by stretch_keeps
    _ = _ := W4_arg5 m ρ c
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by stretch_keeps
    _ = W4 m ρ c (Proc.devRef .tc main_arg6) := by stretch_keeps
    _ = _ := W4_arg6 m ρ c
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := by stretch_keeps
    _ = W4 m ρ c (Proc.devRef .tc main_arg7) := by stretch_keeps
    _ = _ := W4_arg7 m ρ c

/-- The two heads' weight matrices side by side. -/
theorem W7_wcat (c : Dev nD) : W7 m ρ c (Proc.devRef .tc main_v48)
    = concatenate S256x256 1 [⟨S256x128, (m ((c : Thread nD τ).loc main_arg4))⟩, ⟨S256x128, (m ((c : Thread nD τ).loc main_arg6))⟩] concatenates_S256x128_S256x128_S256x256_d1 := by
  show StableHlo.after hostOps1_2 (W6 m ρ c) (Proc.devRef .tc main_v48) = _
  have e1 := W6_arg4 m ρ c
  have e2 := W6_arg6 m ρ c
  generalize W6 m ρ c = V at e1 e2 ⊢
  open_stretches
  after_results
  rw [e1, e2]

/-- The two heads' biases end to end. -/
theorem W7_bcat (c : Dev nD) : W7 m ρ c (Proc.devRef .tc main_v49)
    = concatenate S256 0 [⟨S128, (m ((c : Thread nD τ).loc main_arg5))⟩, ⟨S128, (m ((c : Thread nD τ).loc main_arg7))⟩] concatenates_S128_S128_S256_d0 := by
  show StableHlo.after hostOps1_2 (W6 m ρ c) (Proc.devRef .tc main_v49) = _
  have e1 := W6_arg5 m ρ c
  have e2 := W6_arg7 m ρ c
  generalize W6 m ρ c = V at e1 e2 ⊢
  open_stretches
  after_results
  rw [e1, e2]

theorem W7_src (c : Dev nD) : W7 m ρ c (Proc.devRef .tc main_v3) = val_main_v3 (F := F) (m ((c : Thread nD τ).loc main_arg1)) :=
  calc W7 m ρ c (Proc.devRef .tc main_v3)
    _ = W6 m ρ c (Proc.devRef .tc main_v3) := by stretch_keeps
    _ = W5 m ρ c (Proc.devRef .tc main_v3) := by stretch_keeps
    _ = W4 m ρ c (Proc.devRef .tc main_v3) := by stretch_keeps
    _ = _ := W4_src m ρ c
theorem W7_dst (c : Dev nD) : W7 m ρ c (Proc.devRef .tc main_v6) = val_main_v6 (F := F) (m ((c : Thread nD τ).loc main_arg1)) :=
  calc W7 m ρ c (Proc.devRef .tc main_v6)
    _ = W6 m ρ c (Proc.devRef .tc main_v6) := by stretch_keeps
    _ = W5 m ρ c (Proc.devRef .tc main_v6) := by stretch_keeps
    _ = W4 m ρ c (Proc.devRef .tc main_v6) := by stretch_keeps
    _ = _ := W4_dst m ρ c
theorem W7_norm (c : Dev nD) : W7 m ρ c (Proc.devRef .tc main_v29) = val_main_v30 (F := F) (m ((c : Thread nD τ).loc main_arg1)) :=
  calc W7 m ρ c (Proc.devRef .tc main_v29)
    _ = W6 m ρ c (Proc.devRef .tc main_v29) := by stretch_keeps
    _ = W5 m ρ c (Proc.devRef .tc main_v29) := by stretch_keeps
    _ = W4 m ρ c (Proc.devRef .tc main_v29) := by stretch_keeps
    _ = _ := W4_norm m ρ c

/-! ## After the second region -/

theorem W8_prod (c : Dev nD) : W8 m ρ c (Proc.devRef .tc main_v50) = (dat1 (V7 m ρ) c).arrAt 2 cfg1.N := W8_arr m ρ c 2
theorem W8_src (c : Dev nD) : W8 m ρ c (Proc.devRef .tc main_v3) = val_main_v3 (F := F) (m ((c : Thread nD τ).loc main_arg1)) :=
  (W8_of_ne m ρ c main_v3 (by decide)).trans (W7_src m ρ c)
theorem W8_dst (c : Dev nD) : W8 m ρ c (Proc.devRef .tc main_v6) = val_main_v6 (F := F) (m ((c : Thread nD τ).loc main_arg1)) :=
  (W8_of_ne m ρ c main_v6 (by decide)).trans (W7_dst m ρ c)
theorem W8_norm (c : Dev nD) : W8 m ρ c (Proc.devRef .tc main_v29) = val_main_v30 (F := F) (m ((c : Thread nD τ).loc main_arg1)) :=
  (W8_of_ne m ρ c main_v29 (by decide)).trans (W7_norm m ρ c)
theorem W8_bcat (c : Dev nD) : W8 m ρ c (Proc.devRef .tc main_v49)
    = concatenate S256 0 [⟨S128, (m ((c : Thread nD τ).loc main_arg5))⟩, ⟨S128, (m ((c : Thread nD τ).loc main_arg7))⟩] concatenates_S128_S128_S256_d0 :=
  (W8_of_ne m ρ c main_v49 (by decide)).trans (W7_bcat m ρ c)

/-- The left and the right 128 columns of a [50000, 256] array, stacked. -/
def halves (Y : (⟨S50000x256, .f32⟩ : BufTy).Contents (Elt F)) : (⟨S2x50000x128, .f32⟩ : BufTy).Contents (Elt F) :=
  stack (extractStridedSlice S50000x128 ![0, 0] Y slices_S50000x256_S50000x128_0_0)
    (extractStridedSlice S50000x128 ![0, 128] Y slices_S50000x256_S50000x128_0_128)

/-- The last stretch cut in two: its first nineteen operations are the aggregation at 256 columns and its bias, its last
    five cut the result in two, give each half a leading axis and join them. -/
abbrev lastHead : List (HloOp τ sig (Elt F)) := (hostOps2 (F := F)).take 19
abbrev lastTail : List (HloOp τ sig (Elt F)) := (hostOps2 (F := F)).drop 19

theorem hostOps2_split : (hostOps2 : List (HloOp τ sig (Elt F))) = lastHead ++ lastTail :=
  (List.take_append_drop 19 _).symm

set_option maxHeartbeats 1000000 in
/-- After the nineteen: the second product aggregated at 256 columns, the joined bias added. -/
theorem W9_pre (c : Dev nD) : StableHlo.after lastHead (W8 m ρ c) (Proc.devRef .tc main_v66)
    = layer256 (W8 m ρ c (Proc.devRef .tc main_v50)) (m ((c : Thread nD τ).loc main_arg1)) (W8 m ρ c (Proc.devRef .tc main_v49)) := by
  have e1 := W8_src m ρ c
  have e2 := W8_dst m ρ c
  have e3 := W8_norm m ρ c
  generalize W8 m ρ c = V at e1 e2 e3 ⊢
  simp only [lastHead, hostOps2, List.take_succ_cons, List.take_zero]
  after_results
  rw [e1, e2, e3]
  rfl

/-- The result: that array's left and right halves, stacked. -/
theorem W9_out (c : Dev nD) : W9 m ρ c (Proc.devRef .tc main_v71)
    = halves (layer256 (W8 m ρ c (Proc.devRef .tc main_v50)) (m ((c : Thread nD τ).loc main_arg1)) (W8 m ρ c (Proc.devRef .tc main_v49))) := by
  show StableHlo.after hostOps2 (W8 m ρ c) (Proc.devRef .tc main_v71) = _
  rw [hostOps2_split, StableHlo.after_append]
  have e := W9_pre m ρ c
  generalize StableHlo.after lastHead (W8 m ρ c) = V at e ⊢
  simp only [lastTail, hostOps2, List.drop_succ_cons, List.drop_zero]
  after_results
  rw [e]
  rfl

end Cert.KernelIdeal.Fold

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.MatmulRegion.lean ====
/-
  What the two matrix-product regions of the idealized kernel program leave in their output arrays.

  Each region walks a grid of 25 points. At point t it reads rows 2000·t … 2000·t + 1999 of its left operand
  (an array of 50000 rows), reads its whole right operand, multiplies them on the matrix unit into a zero
  accumulator, and writes the [2000, 256] product to rows 2000·t … 2000·t + 1999 of its output array. Narrowing an
  operand to bf16 is the identity on the extended reals, so the block written at point t is block t of ONE
  whole-array function of the two operands: the entry (r, q) is the sum over k of  lhs(r, k) · rhs(k, q)
  (`rowsTimes`). The 25 blocks tile the 50000 rows (row r lies in the block of point r / 2000), so after the region
  the output array holds that function everywhere (`region0_array`, `region1_array`), and at an entry the sum
  itself (`region0_value`, `region1_value`). Everything is stated at the buffer contents `V` the region is entered
  with, kept a variable throughout.
-/
import proofs.«142886_j60593398612125_1_alg».proof.Proof.Gen.KernelIdeal.Frame
import proofs.«142886_j60593398612125_1_alg».proof.Proof.LibDense
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- The zero offsets of a whole-buffer access, however they are spelt. -/
theorem hz : (![0, 0] : Fin 2 → Nat) = fun _ => 0 :=
  funext fun a => match a with | ⟨0, _⟩ => rfl | ⟨1, _⟩ => rfl

/-- The product of an [R, K] array with a [K, C] array: entry (r, q) is the sum over k of  a(r, k) · b(k, q). -/
def rowsTimes {R K C : ℕ} (a : FVec Ideal ⟨2, ![R, K]⟩ .f32) (b : FVec Ideal ⟨2, ![K, C]⟩ .f32) :
    FVec Ideal ⟨2, ![R, C]⟩ .f32 :=
  fun i => ∑ k : Fin K, a (ix2 (n0 := R) (i 0) k) * b (ix2 k (n1 := C) (i 1))

/-- The product at an entry given by its coordinates. -/
theorem rowsTimes_apply {R K C : ℕ} (a : FVec Ideal ⟨2, ![R, K]⟩ .f32) (b : FVec Ideal ⟨2, ![K, C]⟩ .f32)
    (r : Fin R) (q : Fin C) : rowsTimes a b (ix2 r q) = ∑ k : Fin K, a (ix2 r k) * b (ix2 k q) := rfl

/-! ## Region 0: [50000, 512] × [512, 256] -/

/-- The body's stored value at an entry of the block: both operands narrowed to bf16 (the identity here), the
    matrix unit's product into zeros. -/
theorem pay0_apply (x0 : FVec Ideal S2000x512 .f32) (x1 : FVec Ideal S512x256 .f32) (p : Fin 2000) (q : Fin 256) :
    Gen.k0_pay1 (F := Ideal) x0 x1 (ix2 p q) = ∑ k : Fin 512, x0 (ix2 p k) * x1 (ix2 k q) := by
  unfold Gen.k0_pay1
  exact (Cert.Dense.matmul_zero_plain_apply dot_S2000x512_S512x256_S2000x256_1_0_0_1_n_n rfl rfl rfl rfl rfl rfl
    none _ _ p q).trans rfl

/-- A [2000, 256] block of products is the matching block of the whole product, when the left block is rows
    2000·n … of the left array and the right block is the right array. -/
theorem block0_eq (A : FVec Ideal S50000x512 .f32) (B : FVec Ideal S512x256 .f32)
    (x0 : FVec Ideal S2000x512 .f32) (x1 : FVec Ideal S512x256 .f32) (n : ℕ)
    (h0 : ∀ (y : S2000x512.Idx) (u : S50000x512.Idx), (u 0).val = n * 2000 + (y 0).val → (u 1).val = (y 1).val →
      x0 y = A u)
    (h1 : ∀ (y : S512x256.Idx) (u : S512x256.Idx), (u 0).val = (y 0).val → (u 1).val = (y 1).val → x1 y = B u)
    (j : S2000x256.Idx) (i : S50000x256.Idx) (hi0 : (i 0).val = n * 2000 + (j 0).val) (hi1 : (i 1).val = (j 1).val) :
    Gen.k0_pay1 (F := Ideal) x0 x1 j = rowsTimes A B i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay0_apply, rowsTimes_apply]
  refine Finset.sum_congr rfl fun k _ => ?_
  rw [h0 (ix2 p k) (ix2 r k) hi0 rfl, h1 (ix2 k q) (ix2 k s) rfl hi1]

/-- The printed index maps of region 0, decided over the grid: the left operand's and the output's blocks are at
    row block t, everything else at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of the left array. -/
theorem iblk0_0_apply (V : (c : Dev nD) → (b : Ref sig .tc) → Buf (Elt Ideal) ((c : Thread nD τ).loc b)) (c : Dev nD) (t : Fin cfg0.N)
    (y : S2000x512.Idx) (u : S50000x512.Idx) (hu0 : (u 0).val = t.val * 2000 + (y 0).val) (hu1 : (u 1).val = (y 1).val) :
    (Gen.iblk0 (F := Ideal) V c 0 t : FVec Ideal S2000x512 .f32) y = (V c main_arg0 : FVec Ideal S50000x512 .f32) u := by
  obtain ⟨e0, e1, -⟩ := idx_facts0 t
  unfold Gen.iblk0
  rw [View.read_apply]
  show V c main_arg0 _ = V c main_arg0 _
  congr 1
  funext a
  apply Fin.ext
  match a with
  | ⟨0, _⟩ => show win0_0.index t (0 : Fin 2) * 2000 + 1 * (y 0).val = (u 0).val; omega
  | ⟨1, _⟩ => show win0_0.index t (1 : Fin 2) * 512 + 1 * (y 1).val = (u 1).val; omega

/-- The right operand's block at every point is the whole right array. -/
theorem iblk0_1_apply (V : (c : Dev nD) → (b : Ref sig .tc) → Buf (Elt Ideal) ((c : Thread nD τ).loc b)) (c : Dev nD) (t : Fin cfg0.N)
    (y : S512x256.Idx) (u : S512x256.Idx) (hu0 : (u 0).val = (y 0).val) (hu1 : (u 1).val = (y 1).val) :
    (Gen.iblk0 (F := Ideal) V c 1 t : FVec Ideal S512x256 .f32) y = (V c main_arg2 : FVec Ideal S512x256 .f32) u := by
  obtain ⟨-, -, e2, e3, -⟩ := idx_facts0 t
  unfold Gen.iblk0
  rw [View.read_apply]
  show V c main_arg2 _ = V c main_arg2 _
  congr 1
  funext a
  apply Fin.ext
  match a with
  | ⟨0, _⟩ => show win0_1.index t (0 : Fin 2) * 512 + 1 * (y 0).val = (u 0).val; omega
  | ⟨1, _⟩ => show win0_1.index t (1 : Fin 2) * 256 + 1 * (y 1).val = (u 1).val; omega

/-- What point t writes back is block t of the whole product of the operands as the region finds them. -/
theorem flushed0_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (rowsTimes (R := 50000) (K := 512) (C := 256) (V c main_arg0) (V c main_arg2)) := by
  show (cfg0.win 2).cut (grid0.coords t) ((Gen.dat0 (F := Ideal) V c).after 2 t) = _
  rw [Gen.after0_2]
  unfold Gen.out0_2
  rw [View.canon_unit_zero hz]
  simp only [View.ld_unit_zero (S := S2000x512) hz, View.ld_unit_zero (S := S512x256) hz]
  obtain ⟨-, -, -, -, e4, e5⟩ := idx_facts0 t
  funext j
  show Gen.k0_pay1 (F := Ideal) (Gen.iblk0 V c 0 t) (Gen.iblk0 V c 1 t) j
    = rowsTimes (R := 50000) (K := 512) (C := 256) (V c main_arg0) (V c main_arg2) (((cfg0.win 2).blk t).view.emb j)
  refine block0_eq (V c main_arg0) (V c main_arg2) (Gen.iblk0 V c 0 t) (Gen.iblk0 V c 1 t) t.val
    (iblk0_0_apply V c t) (iblk0_1_apply V c t) j _ ?_ ?_
  · show win0_2.index t (0 : Fin 2) * 2000 + 1 * (j 0).val = t.val * 2000 + (j 0).val; omega
  · show win0_2.index t (1 : Fin 2) * 256 + 1 * (j 1).val = (j 1).val; omega

/-- An index of the output array is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- Every index of the output array is in some point's block: row r is in the block of point r / 2000. -/
theorem cover0 (i : S50000x256.Idx) :
    ∃ t : Fin cfg0.N, (cfg0.win 2).flush t = true ∧ i ∈ ((cfg0.win 2).blk t).view.set := by
  have hN : cfg0.N = 25 := Gen.N_0
  have hi0 : (i 0).val < 50000 := (i 0).isLt
  have hi1 : (i 1).val < 256 := (i 1).isLt
  refine ⟨⟨(i 0).val / 2000, by rw [hN]; omega⟩, Gen.flush0_2 _, ?_⟩
  obtain ⟨-, -, -, -, e4, e5⟩ := idx_facts0 ⟨(i 0).val / 2000, by rw [hN]; omega⟩
  rw [mem_blk0]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e5]; omega

/-- After region 0 its output array holds the whole product of the operands as the region finds them. -/
theorem region0_array (V : (c : Dev nD) → (b : Ref sig .tc) → Buf (Elt Ideal) ((c : Thread nD τ).loc b)) (c : Dev nD) :
    (Gen.dat0 (F := Ideal) V c).arrAt 2 cfg0.N
      = rowsTimes (R := 50000) (K := 512) (C := 256) (V c main_arg0) (V c main_arg2) :=
  (Gen.dat0 (F := Ideal) V c).arrAt_eq_of_cover 2 _ (fun t _ => flushed0_eq V c t) cover0

/-- Region 0's left operand as the region finds it, at its literal type. -/
abbrev lhs0 (V : (c : Dev nD) → (b : Ref sig .tc) → Buf (Elt Ideal) ((c : Thread nD τ).loc b)) (c : Dev nD) : FVec Ideal S50000x512 .f32 := V c main_arg0
/-- Region 0's right operand as the region finds it, at its literal type. -/
abbrev rhs0 (V : (c : Dev nD) → (b : Ref sig .tc) → Buf (Elt Ideal) ((c : Thread nD τ).loc b)) (c : Dev nD) : FVec Ideal S512x256 .f32 := V c main_arg2

/-- After region 0 the entry (r, q) of its output array is the sum over k of  lhs(r, k) · rhs(k, q). -/
theorem region0_value (V : (c : Dev nD) → (b : Ref sig .tc) → Buf (Elt Ideal) ((c : Thread nD τ).loc b)) (c : Dev nD) (r : Fin 50000) (q : Fin 256) :
    (Gen.dat0 (F := Ideal) V c).arrAt 2 cfg0.N (ix2 r q) = ∑ k : Fin 512, lhs0 V c (ix2 r k) * rhs0 V c (ix2 k q) :=
  congrFun (region0_array V c) (ix2 r q)

/-! ## Region 1: [50000, 256] × [256, 256] -/

/-- The body's stored value at an entry of the block: each operand recast to its own shape and narrowed to bf16 (both
    the identity here), the matrix unit's product into zeros. -/
theorem pay1_apply (x0 : FVec Ideal S2000x256 .f32) (x1 : FVec Ideal S256x256 .f32) (p : Fin 2000) (q : Fin 256) :
    Gen.k1_pay1 (F := Ideal) x0 x1 (ix2 p q) = ∑ k : Fin 256, x0 (ix2 p k) * x1 (ix2 k q) := by
  unfold Gen.k1_pay1
  refine (Cert.Dense.matmul_zero_plain_apply dot_S2000x256_S256x256_S2000x256_1_0_0_1_n_n rfl rfl rfl rfl rfl rfl
    none _ _ p q).trans ?_
  rw [shapeCast_self, shapeCast_self]
  rfl

/-- A [2000, 256] block of products is the matching block of the whole product, when the left block is rows
    2000·n … of the left array and the right block is the right array. -/
theorem block1_eq (A : FVec Ideal S50000x256 .f32) (B : FVec Ideal S256x256 .f32)
    (x0 : FVec Ideal S2000x256 .f32) (x1 : FVec Ideal S256x256 .f32) (n : ℕ)
    (h0 : ∀ (y : S2000x256.Idx) (u : S50000x256.Idx), (u 0).val = n * 2000 + (y 0).val → (u 1).val = (y 1).val →
      x0 y = A u)
    (h1 : ∀ (y : S256x256.Idx) (u : S256x256.Idx), (u 0).val = (y 0).val → (u 1).val = (y 1).val → x1 y = B u)
    (j : S2000x256.Idx) (i : S50000x256.Idx) (hi0 : (i 0).val = n * 2000 + (j 0).val) (hi1 : (i 1).val = (j 1).val) :
    Gen.k1_pay1 (F := Ideal) x0 x1 j = rowsTimes A B i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay1_apply, rowsTimes_apply]
  refine Finset.sum_congr rfl fun k _ => ?_
  rw [h0 (ix2 p k) (ix2 r k) hi0 rfl, h1 (ix2 k q) (ix2 k s) rfl hi1]

/-- The printed index maps of region 1, decided over the grid: the left operand's and the output's blocks are at
    row block t, everything else at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 2000·t … 2000·t + 1999 of the left array. -/
theorem iblk1_0_apply (V : (c : Dev nD) → (b : Ref sig .tc) → Buf (Elt Ideal) ((c : Thread nD τ).loc b)) (c : Dev nD) (t : Fin cfg1.N)
    (y : S2000x256.Idx) (u : S50000x256.Idx) (hu0 : (u 0).val = t.val * 2000 + (y 0).val) (hu1 : (u 1).val = (y 1).val) :
    (Gen.iblk1 (F := Ideal) V c 0 t : FVec Ideal S2000x256 .f32) y = (V c main_v47 : FVec Ideal S50000x256 .f32) u := by
  obtain ⟨e0, e1, -⟩ := idx_facts1 t
  unfold Gen.iblk1
  rw [View.read_apply]
  show V c main_v47 _ = V c main_v47 _
  congr 1
  funext a
  apply Fin.ext
  match a with
  | ⟨0, _⟩ => show win1_0.index t (0 : Fin 2) * 2000 + 1 * (y 0).val = (u 0).val; omega
  | ⟨1, _⟩ => show win1_0.index t (1 : Fin 2) * 256 + 1 * (y 1).val = (u 1).val; omega

/-- The right operand's block at every point is the whole right array. -/
theorem iblk1_1_apply (V : (c : Dev nD) → (b : Ref sig .tc) → Buf (Elt Ideal) ((c : Thread nD τ).loc b)) (c : Dev nD) (t : Fin cfg1.N)
    (y : S256x256.Idx) (u : S256x256.Idx) (hu0 : (u 0).val = (y 0).val) (hu1 : (u 1).val = (y 1).val) :
    (Gen.iblk1 (F := Ideal) V c 1 t : FVec Ideal S256x256 .f32) y = (V c main_v48 : FVec Ideal S256x256 .f32) u := by
  obtain ⟨-, -, e2, e3, -⟩ := idx_facts1 t
  unfold Gen.iblk1
  rw [View.read_apply]
  show V c main_v48 _ = V c main_v48 _
  congr 1
  funext a
  apply Fin.ext
  match a with
  | ⟨0, _⟩ => show win1_1.index t (0 : Fin 2) * 256 + 1 * (y 0).val = (u 0).val; omega
  | ⟨1, _⟩ => show win1_1.index t (1 : Fin 2) * 256 + 1 * (y 1).val = (u 1).val; omega

/-- What point t writes back is block t of the whole product of the operands as the region finds them. -/
theorem flushed1_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (rowsTimes (R := 50000) (K := 256) (C := 256) (V c main_v47) (V c main_v48)) := by
  show (cfg1.win 2).cut (grid1.coords t) ((Gen.dat1 (F := Ideal) V c).after 2 t) = _
  rw [Gen.after1_2]
  unfold Gen.out1_2
  rw [View.canon_unit_zero hz]
  simp only [View.ld_unit_zero (S := S2000x256) hz, View.ld_unit_zero (S := S256x256) hz]
  obtain ⟨-, -, -, -, e4, e5⟩ := idx_facts1 t
  funext j
  show Gen.k1_pay1 (F := Ideal) (Gen.iblk1 V c 0 t) (Gen.iblk1 V c 1 t) j
    = rowsTimes (R := 50000) (K := 256) (C := 256) (V c main_v47) (V c main_v48) (((cfg1.win 2).blk t).view.emb j)
  refine block1_eq (V c main_v47) (V c main_v48) (Gen.iblk1 V c 0 t) (Gen.iblk1 V c 1 t) t.val
    (iblk1_0_apply V c t) (iblk1_1_apply V c t) j _ ?_ ?_
  · show win1_2.index t (0 : Fin 2) * 2000 + 1 * (j 0).val = t.val * 2000 + (j 0).val; omega
  · show win1_2.index t (1 : Fin 2) * 256 + 1 * (j 1).val = (j 1).val; omega

/-- An index of the output array is in point t's block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v50).slice (win1_2.rect t)).set ↔ _
  rw [View.set_slice_whole, Rect.mem_set_unit]
  exact Iff.rfl

/-- Every index of the output array is in some point's block: row r is in the block of point r / 2000. -/
theorem cover1 (i : S50000x256.Idx) :
    ∃ t : Fin cfg1.N, (cfg1.win 2).flush t = true ∧ i ∈ ((cfg1.win 2).blk t).view.set := by
  have hN : cfg1.N = 25 := Gen.N_1
  have hi0 : (i 0).val < 50000 := (i 0).isLt
  have hi1 : (i 1).val < 256 := (i 1).isLt
  refine ⟨⟨(i 0).val / 2000, by rw [hN]; omega⟩, Gen.flush1_2 _, ?_⟩
  obtain ⟨-, -, -, -, e4, e5⟩ := idx_facts1 ⟨(i 0).val / 2000, by rw [hN]; omega⟩
  rw [mem_blk1]
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 256 ≤ (i 1).val ∧ (i 1).val < win1_2.index _ (1 : Fin 2) * 256 + 256
    rw [e5]; omega

/-- After region 1 its output array holds the whole product of the operands as the region finds them. -/
theorem region1_array (V : (c : Dev nD) → (b : Ref sig .tc) → Buf (Elt Ideal) ((c : Thread nD τ).loc b)) (c : Dev nD) :
    (Gen.dat1 (F := Ideal) V c).arrAt 2 cfg1.N
      = rowsTimes (R := 50000) (K := 256) (C := 256) (V c main_v47) (V c main_v48) :=
  (Gen.dat1 (F := Ideal) V c).arrAt_eq_of_cover 2 _ (fun t _ => flushed1_eq V c t) cover1

/-- Region 1's left operand as the region finds it, at its literal type. -/
abbrev lhs1 (V : (c : Dev nD) → (b : Ref sig .tc) → Buf (Elt Ideal) ((c : Thread nD τ).loc b)) (c : Dev nD) : FVec Ideal S50000x256 .f32 := V c main_v47
/-- Region 1's right operand as the region finds it, at its literal type. -/
abbrev rhs1 (V : (c : Dev nD) → (b : Ref sig .tc) → Buf (Elt Ideal) ((c : Thread nD τ).loc b)) (c : Dev nD) : FVec Ideal S256x256 .f32 := V c main_v48

/-- After region 1 the entry (r, q) of its output array is the sum over k of  lhs(r, k) · rhs(k, q). -/
theorem region1_value (V : (c : Dev nD) → (b : Ref sig .tc) → Buf (Elt Ideal) ((c : Thread nD τ).loc b)) (c : Dev nD) (r : Fin 50000) (q : Fin 256) :
    (Gen.dat1 (F := Ideal) V c).arrAt 2 cfg1.N (ix2 r q) = ∑ k : Fin 256, lhs1 V c (ix2 r k) * rhs1 V c (ix2 k q) :=
  congrFun (region1_array V c) (ix2 r q)

end Cert.KernelIdeal.RegionValue

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.LibAggregateAt.lean ====
/-
  One graph-aggregation stage read at an entry.

  A stage takes node features  X  ([G, D]: G nodes, D feature columns), and for each of N edges a destination node
  number, a source node number and a weight. Every edge  n  carries the source node's feature row, scaled by the
  edge's weight, to its destination node, where the carried rows are added up; last, a bias row  b  is added to
  every node's row. So the entry (g, j) of the result is

      (0 + Σ over the edges n whose destination is g of  X(src n, j) · w n)  +  b j .

  As a host program spells it: the node numbers and the weights, each an [N] array, are laid out as [N, 1] columns;
  the source column picks the rows of  X  (a row gather: the number is read signed and clamped into the table's
  rows); the weight column is repeated over the D feature columns and multiplies the picked rows; the products are
  accumulated into a zero [G, D] array at the rows the destination column names (a row scatter with addition: the
  number is read signed and NOT clamped, so an edge whose destination is no node is dropped); and the bias, laid
  out as [1, D] and then over the G rows, is added. The leading  0  is the entry of the zero array the
  accumulation starts from.

  The second statement compares two such stages over the same edges whose feature tables are related by a
  column offset: if the wider table's columns  o, o + 1, …  are the narrower table's columns  0, 1, … , and the
  biases agree in the same way, then so do the results, since an entry of the result only reads its own column.
-/
import Idealize.ShloMosaic.PureOps.Ideal
import Idealize.ShloMosaic.PureOps.Ideal.Laws
import Idealize.ShloMosaic.Lib.ValueIdx
import Idealize.ShloMosaic.Lib.Pipeline.Value
import proofs.«142886_j60593398612125_1_alg».proof.Proof.LibScatterRows
import proofs.«142886_j60593398612125_1_alg».proof.Proof.LibGatherRows
import proofs.«142886_j60593398612125_1_alg».proof.Proof.LibBiasRow

noncomputable section

open scoped BigOperators

namespace Cert.AggregateAt

open Idealize.ShloMosaic Idealize.ShloMosaic.ValueIdx

variable {G D N : ℕ}

/-! ## The two layouts of a per-edge array -/

/-- A per-edge array laid out as a column, [N] → [N, 1] on axis 0, reads at (n, 0) its entry n. -/
theorem column_apply {α : Type}
    (hc : (⟨1, ![N]⟩ : Shape).BroadcastsInDim ⟨2, ![N, 1]⟩ (![0] : Fin 1 → Fin 2))
    (v : (⟨1, ![N]⟩ : Shape).Idx → α) (n : Fin N) :
    broadcastInDim ⟨2, ![N, 1]⟩ ![0] hc v (ix2 n (0 : Fin 1)) = v (ix1 n) := by
  refine broadcastInDim_apply ![0] hc v (ix2 n (0 : Fin 1)) (ix1 n) fun a => ?_
  match a with
  | ⟨0, _⟩ => show n.val = if N = 1 then 0 else n.val; exact Cert.BiasRow.col_val n

/-- A column repeated over D columns, [N, 1] → [N, D] on axes (0, 1), reads at (n, j) the column's entry (n, 0). -/
theorem stretch_apply {α : Type}
    (hcd : (⟨2, ![N, 1]⟩ : Shape).BroadcastsInDim ⟨2, ![N, D]⟩ (![0, 1] : Fin 2 → Fin 2))
    (v : (⟨2, ![N, 1]⟩ : Shape).Idx → α) (n : Fin N) (j : Fin D) :
    broadcastInDim ⟨2, ![N, D]⟩ ![0, 1] hcd v (ix2 n j) = v (ix2 n (0 : Fin 1)) := by
  refine broadcastInDim_apply ![0, 1] hcd v (ix2 n j) (ix2 n (0 : Fin 1)) fun a => ?_
  match a with
  | ⟨0, _⟩ => show n.val = if N = 1 then 0 else n.val; exact Cert.BiasRow.col_val n
  | ⟨1, _⟩ => exact (if_pos rfl).symm

/-- The zero scalar laid out over an array reads 0 everywhere: the zero word is the number 0. -/
theorem zeros_apply {s : Shape} (hz : (⟨0, ![]⟩ : Shape).BroadcastsInDim s (![] : Fin 0 → Fin s.rank)) (i : s.Idx) :
    broadcastInDim s ![] hz (constant (F := Ideal) ⟨0, ![]⟩ .f32 0x00000000#32) i = (0 : EReal) := by
  have e : broadcastInDim s ![] hz (constant (F := Ideal) ⟨0, ![]⟩ .f32 0x00000000#32) i
      = constant (F := Ideal) ⟨0, ![]⟩ .f32 0x00000000#32 ix0 :=
    broadcastInDim_apply ![] hz _ i ix0 fun a => a.elim0
  rw [e, constant_apply, Ideal.ofBits_zero_f32]

/-! ## What one edge carries -/

/-- The row an edge carries, at column j: the source node's feature (its number read signed and clamped into the
    nodes) times the edge's weight. -/
theorem carried_apply (hG : 0 < G)
    (dG : GatherDims (⟨2, ![G, D]⟩ : Shape) (⟨2, ![N, 1]⟩ : Shape) (⟨2, ![N, D]⟩ : Shape))
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, D])
    (hcs : (⟨1, ![N]⟩ : Shape).BroadcastsInDim ⟨2, ![N, 1]⟩ (![0] : Fin 1 → Fin 2))
    (hcn : (⟨1, ![N]⟩ : Shape).BroadcastsInDim ⟨2, ![N, 1]⟩ (![0] : Fin 1 → Fin 2))
    (hcd : (⟨2, ![N, 1]⟩ : Shape).BroadcastsInDim ⟨2, ![N, D]⟩ (![0, 1] : Fin 2 → Fin 2))
    (X : FVec Ideal ⟨2, ![G, D]⟩ .f32) (srcv : IVec ⟨1, ![N]⟩ 32) (nrm : FVec Ideal ⟨1, ![N]⟩ .f32)
    (n : Fin N) (j : Fin D) :
    mulf (Host.gather dG X (broadcastInDim ⟨2, ![N, 1]⟩ ![0] hcs srcv))
         (broadcastInDim ⟨2, ![N, D]⟩ ![0, 1] hcd (broadcastInDim ⟨2, ![N, 1]⟩ ![0] hcn nrm)) (ix2 n j)
      = X (ix2 ⟨min (srcv (ix1 n)).toInt.toNat (G - 1), by omega⟩ j) * nrm (ix1 n) := by
  rw [mulf_apply, Cert.GatherRows.gather_rows_apply hG dG g1 g2 g3 g4 g5 g6 g7 X _ n j,
    stretch_apply hcd _ n j, column_apply hcn nrm n]
  -- the source number is the column's entry (n, 0)
  refine congrArg (fun r : Fin G => X (ix2 r j) * nrm (ix1 n)) (Fin.ext ?_)
  show min (broadcastInDim ⟨2, ![N, 1]⟩ ![0] hcs srcv (ix2 n (0 : Fin 1))).toInt.toNat (G - 1)
    = min (srcv (ix1 n)).toInt.toNat (G - 1)
  rw [column_apply hcs srcv n]

/-! ## The stage at an entry -/

/-- At the ideal instance the host's accumulating scatter is the exact one: each operand entry plus the sum of the
    update entries that land on it. -/
theorem scatterAdd_ideal {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd := rfl

/-- THE STAGE AT (g, j): the zero it starts from, plus the sum over the edges whose destination (read signed) is g
    of the source node's feature in column j times the edge's weight, plus the bias in column j. -/
theorem agg_apply (hG : 0 < G)
    (dS : ScatterDims (⟨2, ![G, D]⟩ : Shape) (⟨2, ![N, 1]⟩ : Shape) (⟨2, ![N, D]⟩ : Shape))
    (s1 : dS.updateWindowDims = [1]) (s2 : dS.insertedWindowDims = [0]) (s3 : dS.scatterDimsToOperandDims = [0])
    (s4 : dS.indexVectorDim = 1)
    (dG : GatherDims (⟨2, ![G, D]⟩ : Shape) (⟨2, ![N, 1]⟩ : Shape) (⟨2, ![N, D]⟩ : Shape))
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, D])
    (hz : (⟨0, ![]⟩ : Shape).BroadcastsInDim ⟨2, ![G, D]⟩ (![] : Fin 0 → Fin 2))
    (hcd' : (⟨1, ![N]⟩ : Shape).BroadcastsInDim ⟨2, ![N, 1]⟩ (![0] : Fin 1 → Fin 2))
    (hcs : (⟨1, ![N]⟩ : Shape).BroadcastsInDim ⟨2, ![N, 1]⟩ (![0] : Fin 1 → Fin 2))
    (hcn : (⟨1, ![N]⟩ : Shape).BroadcastsInDim ⟨2, ![N, 1]⟩ (![0] : Fin 1 → Fin 2))
    (hcd : (⟨2, ![N, 1]⟩ : Shape).BroadcastsInDim ⟨2, ![N, D]⟩ (![0, 1] : Fin 2 → Fin 2))
    (hb1 : (⟨1, ![D]⟩ : Shape).BroadcastsInDim ⟨2, ![1, D]⟩ (![1] : Fin 1 → Fin 2))
    (hb2 : (⟨2, ![1, D]⟩ : Shape).BroadcastsInDim ⟨2, ![G, D]⟩ (![0, 1] : Fin 2 → Fin 2))
    (X : FVec Ideal ⟨2, ![G, D]⟩ .f32) (dstv srcv : IVec ⟨1, ![N]⟩ 32) (nrm : FVec Ideal ⟨1, ![N]⟩ .f32)
    (b : FVec Ideal ⟨1, ![D]⟩ .f32) (g : Fin G) (j : Fin D) :
    addf (Host.scatterAdd (F := Ideal) dS
            (broadcastInDim ⟨2, ![G, D]⟩ ![] hz (constant (F := Ideal) ⟨0, ![]⟩ .f32 0x00000000#32))
            (broadcastInDim ⟨2, ![N, 1]⟩ ![0] hcd' dstv)
            (mulf (Host.gather dG X (broadcastInDim ⟨2, ![N, 1]⟩ ![0] hcs srcv))
                  (broadcastInDim ⟨2, ![N, D]⟩ ![0, 1] hcd (broadcastInDim ⟨2, ![N, 1]⟩ ![0] hcn nrm))))
         (broadcastInDim ⟨2, ![G, D]⟩ ![0, 1] hb2 (broadcastInDim ⟨2, ![1, D]⟩ ![1] hb1 b)) (ix2 g j)
      = (0 + ∑ n : Fin N, if (dstv (ix1 n)).toInt = (g.val : ℤ)
            then X (ix2 ⟨min (srcv (ix1 n)).toInt.toNat (G - 1), by omega⟩ j) * nrm (ix1 n) else 0)
        + b (ix1 j) := by
  rw [addf_apply, Cert.BiasRow.layout_layout_apply hb1 hb2 b g j]
  refine congrArg (fun t : EReal => t + b (ix1 j)) ?_
  -- at the ideal instance the accumulating scatter is the exact sum over the rows that land on (g, j)
  rw [scatterAdd_ideal, Cert.LibScatterRows.hostScatterAdd_rows dS s1 s2 s3 s4 _ _ _ g j,
    zeros_apply hz (ix2 g j)]
  refine congrArg (fun t : EReal => (0 : EReal) + t) ?_
  refine Finset.sum_congr rfl fun n _ => ?_
  rw [column_apply hcd' dstv n,
    carried_apply hG dG g1 g2 g3 g4 g5 g6 g7 hcs hcn hcd X srcv nrm n j]

/-! ## Two stages over the same edges, the tables related by a column offset -/

/-- If columns  o, o + 1, …  of a [G, D] table are columns  0, 1, …  of a [G, D'] table, and the biases agree in the
    same way, then the stage over the wide table at column  c + o  is the stage over the narrow table at column  c :
    an entry of the result reads only its own column of the table and of the bias. -/
theorem agg_cols {D' o : ℕ} (ho : o + D' ≤ D) (hG : 0 < G)
    -- the wide stage's records and layout facts
    (dS : ScatterDims (⟨2, ![G, D]⟩ : Shape) (⟨2, ![N, 1]⟩ : Shape) (⟨2, ![N, D]⟩ : Shape))
    (s1 : dS.updateWindowDims = [1]) (s2 : dS.insertedWindowDims = [0]) (s3 : dS.scatterDimsToOperandDims = [0])
    (s4 : dS.indexVectorDim = 1)
    (dG : GatherDims (⟨2, ![G, D]⟩ : Shape) (⟨2, ![N, 1]⟩ : Shape) (⟨2, ![N, D]⟩ : Shape))
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, D])
    (hz : (⟨0, ![]⟩ : Shape).BroadcastsInDim ⟨2, ![G, D]⟩ (![] : Fin 0 → Fin 2))
    (hcd' : (⟨1, ![N]⟩ : Shape).BroadcastsInDim ⟨2, ![N, 1]⟩ (![0] : Fin 1 → Fin 2))
    (hcs : (⟨1, ![N]⟩ : Shape).BroadcastsInDim ⟨2, ![N, 1]⟩ (![0] : Fin 1 → Fin 2))
    (hcn : (⟨1, ![N]⟩ : Shape).BroadcastsInDim ⟨2, ![N, 1]⟩ (![0] : Fin 1 → Fin 2))
    (hcd : (⟨2, ![N, 1]⟩ : Shape).BroadcastsInDim ⟨2, ![N, D]⟩ (![0, 1] : Fin 2 → Fin 2))
    (hb1 : (⟨1, ![D]⟩ : Shape).BroadcastsInDim ⟨2, ![1, D]⟩ (![1] : Fin 1 → Fin 2))
    (hb2 : (⟨2, ![1, D]⟩ : Shape).BroadcastsInDim ⟨2, ![G, D]⟩ (![0, 1] : Fin 2 → Fin 2))
    -- the narrow stage's records and layout facts
    (eS : ScatterDims (⟨2, ![G, D']⟩ : Shape) (⟨2, ![N, 1]⟩ : Shape) (⟨2, ![N, D']⟩ : Shape))
    (t1 : eS.updateWindowDims = [1]) (t2 : eS.insertedWindowDims = [0]) (t3 : eS.scatterDimsToOperandDims = [0])
    (t4 : eS.indexVectorDim = 1)
    (eG : GatherDims (⟨2, ![G, D']⟩ : Shape) (⟨2, ![N, 1]⟩ : Shape) (⟨2, ![N, D']⟩ : Shape))
    (k1 : eG.offsetDims = [1]) (k2 : eG.collapsedSliceDims = [0]) (k3 : eG.operandBatchingDims = [])
    (k4 : eG.startIndicesBatchingDims = []) (k5 : eG.startIndexMap = [0]) (k6 : eG.indexVectorDim = 1)
    (k7 : eG.sliceSizes = ![1, D'])
    (iz : (⟨0, ![]⟩ : Shape).BroadcastsInDim ⟨2, ![G, D']⟩ (![] : Fin 0 → Fin 2))
    (icd' : (⟨1, ![N]⟩ : Shape).BroadcastsInDim ⟨2, ![N, 1]⟩ (![0] : Fin 1 → Fin 2))
    (ics : (⟨1, ![N]⟩ : Shape).BroadcastsInDim ⟨2, ![N, 1]⟩ (![0] : Fin 1 → Fin 2))
    (icn : (⟨1, ![N]⟩ : Shape).BroadcastsInDim ⟨2, ![N, 1]⟩ (![0] : Fin 1 → Fin 2))
    (icd : (⟨2, ![N, 1]⟩ : Shape).BroadcastsInDim ⟨2, ![N, D']⟩ (![0, 1] : Fin 2 → Fin 2))
    (ib1 : (⟨1, ![D']⟩ : Shape).BroadcastsInDim ⟨2, ![1, D']⟩ (![1] : Fin 1 → Fin 2))
    (ib2 : (⟨2, ![1, D']⟩ : Shape).BroadcastsInDim ⟨2, ![G, D']⟩ (![0, 1] : Fin 2 → Fin 2))
    (X : FVec Ideal ⟨2, ![G, D]⟩ .f32) (X' : FVec Ideal ⟨2, ![G, D']⟩ .f32)
    (b : FVec Ideal ⟨1, ![D]⟩ .f32) (b' : FVec Ideal ⟨1, ![D']⟩ .f32)
    (dstv srcv : IVec ⟨1, ![N]⟩ 32) (nrm : FVec Ideal ⟨1, ![N]⟩ .f32)
    (hX : ∀ (r : Fin G) (c : Fin D'), X (ix2 r ⟨c.val + o, by have := c.isLt; omega⟩) = X' (ix2 r c))
    (hb : ∀ c : Fin D', b (ix1 ⟨c.val + o, by have := c.isLt; omega⟩) = b' (ix1 c))
    (g : Fin G) (c : Fin D') :
    addf (Host.scatterAdd (F := Ideal) dS
            (broadcastInDim ⟨2, ![G, D]⟩ ![] hz (constant (F := Ideal) ⟨0, ![]⟩ .f32 0x00000000#32))
            (broadcastInDim ⟨2, ![N, 1]⟩ ![0] hcd' dstv)
            (mulf (Host.gather dG X (broadcastInDim ⟨2, ![N, 1]⟩ ![0] hcs srcv))
                  (broadcastInDim ⟨2, ![N, D]⟩ ![0, 1] hcd (broadcastInDim ⟨2, ![N, 1]⟩ ![0] hcn nrm))))
         (broadcastInDim ⟨2, ![G, D]⟩ ![0, 1] hb2 (broadcastInDim ⟨2, ![1, D]⟩ ![1] hb1 b))
         (ix2 g ⟨c.val + o, by have := c.isLt; omega⟩)
      = addf (Host.scatterAdd (F := Ideal) eS
            (broadcastInDim ⟨2, ![G, D']⟩ ![] iz (constant (F := Ideal) ⟨0, ![]⟩ .f32 0x00000000#32))
            (broadcastInDim ⟨2, ![N, 1]⟩ ![0] icd' dstv)
            (mulf (Host.gather eG X' (broadcastInDim ⟨2, ![N, 1]⟩ ![0] ics srcv))
                  (broadcastInDim ⟨2, ![N, D']⟩ ![0, 1] icd (broadcastInDim ⟨2, ![N, 1]⟩ ![0] icn nrm))))
         (broadcastInDim ⟨2, ![G, D']⟩ ![0, 1] ib2 (broadcastInDim ⟨2, ![1, D']⟩ ![1] ib1 b'))
         (ix2 g c) := by
  rw [agg_apply hG dS s1 s2 s3 s4 dG g1 g2 g3 g4 g5 g6 g7 hz hcd' hcs hcn hcd hb1 hb2 X dstv srcv nrm b g
      ⟨c.val + o, by have := c.isLt; omega⟩,
    agg_apply hG eS t1 t2 t3 t4 eG k1 k2 k3 k4 k5 k6 k7 iz icd' ics icn icd ib1 ib2 X' dstv srcv nrm b' g c,
    hb c]
  refine congrArg (fun t : EReal => (0 + t) + b' (ix1 c)) ?_
  refine Finset.sum_congr rfl fun n _ => ?_
  rw [hX ⟨min (srcv (ix1 n)).toInt.toNat (G - 1), by omega⟩ c]

end Cert.AggregateAt

end
-- ==== Proof.Bridge.lean ====
/-
  The kernel program's result is the reference's.

  Both programs apply the same graph convolution; they differ in two places. First, the kernel program takes its two
  matrix products in Pallas regions, block of rows by block of rows, where the reference has one general product; over
  the extended reals either is, at (r, c), the sum over k of  lhs(r, k) · rhs(k, c)  (`prod0_eq`, `prod1_apply`).
  Second, the reference runs the second layer once per head, at 128 columns, where the kernel program joins the two
  heads' weight matrices side by side and their biases end to end, runs the layer ONCE at 256 columns, and cuts the
  result into its left and right halves. Column q + o of the joined product is column q of a head's product, because the
  joined matrix's column q + o is that head's column q and the sum over k does not look at other columns
  (`prod1_left`, `prod1_right`); and the aggregation — every edge's source row, scaled by the edge weight, added into
  the destination row, then the bias — acts on each column by itself, so column q + o of the wide stage is column q of
  the narrow one (the general lemma `AggregateAt.agg_cols`). Hence each half is a head (`head1_eq`, `head2_eq`), and
  the stacked halves are the reference's stacked heads (`result_eq`). No law of arithmetic is used beyond the two sums
  being the same sum, so nothing here needs the inputs finite.
-/
import proofs.«142886_j60593398612125_1_alg».proof.Proof.KernelFold
import proofs.«142886_j60593398612125_1_alg».proof.Proof.MatmulRegion
import proofs.«142886_j60593398612125_1_alg».proof.Proof.LibAggregateAt
import proofs.«142886_j60593398612125_1_alg».proof.Proof.LibDense
import Idealize.ShloMosaic.Lib.Pipeline.Value
import Idealize.ShloMosaic.Lib.ValueIdx

set_option maxRecDepth 16384

noncomputable section

open scoped BigOperators

namespace Cert.Bridge

open Cert.KernelIdeal Cert.KernelIdeal.Gen Cert.KernelIdeal.Fold Cert.KernelIdeal.RegionValue
open Idealize.ShloMosaic Idealize.ShloMosaic.TcCoe Idealize.SL.Sem Idealize.ShloMosaic.ValueIdx
open Cert.ReferenceIdeal.ReadP Cert.RefStages

variable (m : (ℓ : Loc nD τ sig) → Buf (Elt Ideal) ℓ) (ρ : Dev nD → PrngReg)

/-! ## The argument arrays, each named once at its literal type -/

/-- The node features. -/
abbrev aX (c : Dev nD) : FVec Ideal S50000x512 .f32 := m ((c : Thread nD τ).loc main_arg0)
/-- The edge list. -/
abbrev aE (c : Dev nD) : (⟨S2x800000, .i32⟩ : BufTy).Contents (Elt Ideal) := m ((c : Thread nD τ).loc main_arg1)
/-- The first layer's weights and bias. -/
abbrev aW1 (c : Dev nD) : FVec Ideal S512x256 .f32 := m ((c : Thread nD τ).loc main_arg2)
abbrev aB1 (c : Dev nD) : FVec Ideal S256 .f32 := m ((c : Thread nD τ).loc main_arg3)
/-- The first head's weights and bias. -/
abbrev aWmu (c : Dev nD) : FVec Ideal S256x128 .f32 := m ((c : Thread nD τ).loc main_arg4)
abbrev aBmu (c : Dev nD) : FVec Ideal S128 .f32 := m ((c : Thread nD τ).loc main_arg5)
/-- The second head's weights and bias. -/
abbrev aWls (c : Dev nD) : FVec Ideal S256x128 .f32 := m ((c : Thread nD τ).loc main_arg6)
abbrev aBls (c : Dev nD) : FVec Ideal S128 .f32 := m ((c : Thread nD τ).loc main_arg7)

/-! ## The two products -/

/-- The first region's product is the reference's first product. -/
theorem prod0_eq (c : Dev nD) :
    (dat0 (V3 m ρ) c).arrAt 2 cfg0.N = val_main_v7 (F := Ideal) (aX m c) (aW1 m c) := by
  have e0 : V3 m ρ c main_arg0 = aX m c := W3_arg0 m ρ c
  have e2 : V3 m ρ c main_arg2 = aW1 m c := W3_arg2 m ρ c
  rw [region0_array, e0, e2]
  funext i
  obtain ⟨r, q, rfl⟩ : ∃ (r : Fin 50000) (q : Fin 256), i = ix2 r q := ⟨i 0, i 1, eq_ix2 i⟩
  rw [rowsTimes_apply]
  unfold val_main_v7
  exact (Cert.Dense.dotGeneral_plain_apply _ rfl rfl rfl rfl rfl rfl none (aX m c) (aW1 m c) r q).symm

/-- So the kernel program's hidden layer is the reference's. -/
theorem hidden_eq (c : Dev nD) : V7 m ρ c main_v47 = val_main_v47 (F := Ideal) (aX m c) (aE m c) (aW1 m c) (aB1 m c) := by
  have e : V7 m ρ c main_v47 = _ := W7_hidden m ρ c
  rw [e, W4_prod, prod0_eq, ref_hidden]

/-- The hidden layer, the joined weights, the joined bias and the second region's product, at their literal types. -/
abbrev hid (c : Dev nD) : FVec Ideal S50000x256 .f32 := val_main_v47 (F := Ideal) (aX m c) (aE m c) (aW1 m c) (aB1 m c)
abbrev wcat (c : Dev nD) : FVec Ideal S256x256 .f32 :=
  concatenate S256x256 1 [⟨S256x128, aWmu m c⟩, ⟨S256x128, aWls m c⟩] concatenates_S256x128_S256x128_S256x256_d1
abbrev bcat (c : Dev nD) : FVec Ideal S256 .f32 :=
  concatenate S256 0 [⟨S128, aBmu m c⟩, ⟨S128, aBls m c⟩] concatenates_S128_S128_S256_d0
abbrev prod1 (c : Dev nD) : FVec Ideal S50000x256 .f32 := (dat1 (V7 m ρ) c).arrAt 2 cfg1.N

/-- The second region's product at (r, q): the hidden layer's row r against the joined weights' column q. -/
theorem prod1_apply (c : Dev nD) (r : Fin 50000) (q : Fin 256) :
    prod1 m ρ c (ix2 r q) = ∑ k : Fin 256, hid m c (ix2 r k) * wcat m c (ix2 k q) := by
  have e1 : lhs1 (V7 m ρ) c = hid m c := hidden_eq m ρ c
  have e2 : rhs1 (V7 m ρ) c = wcat m c := W7_wcat m ρ c
  show (dat1 (V7 m ρ) c).arrAt 2 cfg1.N (ix2 r q) = _
  rw [region1_value, e1, e2]

/-! ## Two arrays joined along an axis, read on either side of the seam -/

theorem cat_cols_left (A B : FVec Ideal S256x128 .f32) (k : Fin 256) (q : Fin 128) :
    concatenate S256x256 1 [⟨S256x128, A⟩, ⟨S256x128, B⟩] concatenates_S256x128_S256x128_S256x256_d1
      (ix2 k ⟨q.val + 0, by have := q.isLt; omega⟩) = A (ix2 k q) :=
  concatenate_pair_apply_left (t := S256x256) (1 : Fin 2) A B concatenates_S256x128_S256x128_S256x256_d1 _ rfl (ix2 k q)
    (fun b => match b with | ⟨0, _⟩ => rfl | ⟨1, _⟩ => rfl)

theorem cat_cols_right (A B : FVec Ideal S256x128 .f32) (k : Fin 256) (q : Fin 128) :
    concatenate S256x256 1 [⟨S256x128, A⟩, ⟨S256x128, B⟩] concatenates_S256x128_S256x128_S256x256_d1
      (ix2 k ⟨q.val + 128, by have := q.isLt; omega⟩) = B (ix2 k q) :=
  concatenate_pair_apply_right (t := S256x256) (1 : Fin 2) A B concatenates_S256x128_S256x128_S256x256_d1 _ rfl rfl (ix2 k q)
    (fun b hb => match b, hb with | ⟨0, _⟩, _ => rfl | ⟨1, _⟩, hb => absurd rfl hb) rfl

theorem cat_left (a b : FVec Ideal S128 .f32) (q : Fin 128) :
    concatenate S256 0 [⟨S128, a⟩, ⟨S128, b⟩] concatenates_S128_S128_S256_d0
      (ix1 ⟨q.val + 0, by have := q.isLt; omega⟩) = a (ix1 q) :=
  concatenate_pair_apply_left (t := S256) (0 : Fin 1) a b concatenates_S128_S128_S256_d0 _ rfl (ix1 q)
    (fun b => match b with | ⟨0, _⟩ => rfl)

theorem cat_right (a b : FVec Ideal S128 .f32) (q : Fin 128) :
    concatenate S256 0 [⟨S128, a⟩, ⟨S128, b⟩] concatenates_S128_S128_S256_d0
      (ix1 ⟨q.val + 128, by have := q.isLt; omega⟩) = b (ix1 q) :=
  concatenate_pair_apply_right (t := S256) (0 : Fin 1) a b concatenates_S128_S128_S256_d0 _ rfl rfl (ix1 q)
    (fun b hb => match b, hb with | ⟨0, _⟩, hb => absurd rfl hb) rfl

/-! ## A column of the joined product is a column of a head's product -/

theorem prod1_left (c : Dev nD) (r : Fin 50000) (q : Fin 128) :
    prod1 m ρ c (ix2 r ⟨q.val + 0, by have := q.isLt; omega⟩)
      = val_main_v48 (F := Ideal) (aX m c) (aE m c) (aW1 m c) (aB1 m c) (aWmu m c) (ix2 r q) := by
  rw [prod1_apply]
  unfold val_main_v48
  rw [Cert.Dense.dotGeneral_plain_apply _ rfl rfl rfl rfl rfl rfl]
  exact Finset.sum_congr rfl fun k _ => congrArg (hid m c (ix2 r k) * ·) (cat_cols_left _ _ k q)

theorem prod1_right (c : Dev nD) (r : Fin 50000) (q : Fin 128) :
    prod1 m ρ c (ix2 r ⟨q.val + 128, by have := q.isLt; omega⟩)
      = val_main_v88 (F := Ideal) (aX m c) (aE m c) (aW1 m c) (aB1 m c) (aWls m c) (ix2 r q) := by
  rw [prod1_apply]
  unfold val_main_v88
  rw [Cert.Dense.dotGeneral_plain_apply _ rfl rfl rfl rfl rfl rfl]
  exact Finset.sum_congr rfl fun k _ => congrArg (hid m c (ix2 r k) * ·) (cat_cols_right _ _ k q)

/-! ## Each half of the wide stage is a head -/

/-- The left 128 columns of the 256-column stage over the joined product are the first head. -/
theorem head1_eq (c : Dev nD) :
    extractStridedSlice S50000x128 ![0, 0] (layer256 (prod1 m ρ c) (aE m c) (bcat m c)) slices_S50000x256_S50000x128_0_0
      = val_main_v87 (F := Ideal) (aX m c) (aE m c) (aW1 m c) (aB1 m c) (aWmu m c) (aBmu m c) := by
  rw [ref_head1]
  funext i
  obtain ⟨n, q, rfl⟩ : ∃ (n : Fin 50000) (q : Fin 128), i = ix2 n q := ⟨i 0, i 1, eq_ix2 i⟩
  refine (extractStridedSlice_apply _ _ _ (ix2 n q) (ix2 n ⟨q.val + 0, by have := q.isLt; omega⟩) (fun a => match a with
    | ⟨0, _⟩ => by show n.val = 0 + n.val; omega
    | ⟨1, _⟩ => by show q.val + 0 = 0 + q.val; omega)).trans ?_
  unfold layer256 layer128
  unfold val_main_v41 val_main_cst_8 val_main_v42 val_main_v36 val_main_v39 val_main_v38 val_main_v45 val_main_v44
    val_main_v82 val_main_cst_19 val_main_v83 val_main_v77 val_main_v80 val_main_v79 val_main_v86 val_main_v85
  rw [srcw_eq2, norm_eq2]
  exact Cert.AggregateAt.agg_cols (G := 50000) (D := 256) (N := 850000) (D' := 128) (o := 0) (by decide) (by decide)
    Cert.ReferenceIdeal.scatter_S50000x256_S850000x1_S850000x256_1_0_0_1 rfl rfl rfl rfl
    Cert.ReferenceIdeal.gather_S50000x256_S850000x1_S850000x256_1_0_n_n_0_1_1256 rfl rfl rfl rfl rfl rfl rfl
    Cert.ReferenceIdeal.Gen.bcast_S_S50000x256 Cert.ReferenceIdeal.Gen.bcast_S850000_S850000x1_0 Cert.ReferenceIdeal.Gen.bcast_S850000_S850000x1_0 Cert.ReferenceIdeal.Gen.bcast_S850000_S850000x1_0
    Cert.ReferenceIdeal.Gen.bcast_S850000x1_S850000x256_0_1 Cert.ReferenceIdeal.Gen.bcast_S256_S1x256_1 Cert.ReferenceIdeal.Gen.bcast_S1x256_S50000x256_0_1
    Cert.ReferenceIdeal.scatter_S50000x128_S850000x1_S850000x128_1_0_0_1 rfl rfl rfl rfl
    Cert.ReferenceIdeal.gather_S50000x128_S850000x1_S850000x128_1_0_n_n_0_1_1128 rfl rfl rfl rfl rfl rfl rfl
    Cert.ReferenceIdeal.Gen.bcast_S_S50000x128 Cert.ReferenceIdeal.Gen.bcast_S850000_S850000x1_0 Cert.ReferenceIdeal.Gen.bcast_S850000_S850000x1_0 Cert.ReferenceIdeal.Gen.bcast_S850000_S850000x1_0
    Cert.ReferenceIdeal.Gen.bcast_S850000x1_S850000x128_0_1 Cert.ReferenceIdeal.Gen.bcast_S128_S1x128_1 Cert.ReferenceIdeal.Gen.bcast_S1x128_S50000x128_0_1
    (prod1 m ρ c) (val_main_v48 (F := Ideal) (aX m c) (aE m c) (aW1 m c) (aB1 m c) (aWmu m c)) (bcat m c) (aBmu m c)
    (val_main_v6 (F := Ideal) (aE m c)) (val_main_v35 (F := Ideal) (aE m c)) (val_main_v30 (F := Ideal) (aE m c))
    (fun r q' => prod1_left m ρ c r q') (fun q' => cat_left _ _ q') n q

/-- The right 128 columns are the second head. -/
theorem head2_eq (c : Dev nD) :
    extractStridedSlice S50000x128 ![0, 128] (layer256 (prod1 m ρ c) (aE m c) (bcat m c)) slices_S50000x256_S50000x128_0_128
      = val_main_v127 (F := Ideal) (aX m c) (aE m c) (aW1 m c) (aB1 m c) (aWls m c) (aBls m c) := by
  rw [ref_head2]
  funext i
  obtain ⟨n, q, rfl⟩ : ∃ (n : Fin 50000) (q : Fin 128), i = ix2 n q := ⟨i 0, i 1, eq_ix2 i⟩
  refine (extractStridedSlice_apply _ _ _ (ix2 n q) (ix2 n ⟨q.val + 128, by have := q.isLt; omega⟩) (fun a => match a with
    | ⟨0, _⟩ => by show n.val = 0 + n.val; omega
    | ⟨1, _⟩ => by show q.val + 128 = 128 + q.val; omega)).trans ?_
  unfold layer256 layer128
  unfold val_main_v41 val_main_cst_8 val_main_v42 val_main_v36 val_main_v39 val_main_v38 val_main_v45 val_main_v44
    val_main_v82 val_main_cst_19 val_main_v83 val_main_v77 val_main_v80 val_main_v79 val_main_v86 val_main_v85
  rw [srcw_eq2, norm_eq2]
  exact Cert.AggregateAt.agg_cols (G := 50000) (D := 256) (N := 850000) (D' := 128) (o := 128) (by decide) (by decide)
    Cert.ReferenceIdeal.scatter_S50000x256_S850000x1_S850000x256_1_0_0_1 rfl rfl rfl rfl
    Cert.ReferenceIdeal.gather_S50000x256_S850000x1_S850000x256_1_0_n_n_0_1_1256 rfl rfl rfl rfl rfl rfl rfl
    Cert.ReferenceIdeal.Gen.bcast_S_S50000x256 Cert.ReferenceIdeal.Gen.bcast_S850000_S850000x1_0 Cert.ReferenceIdeal.Gen.bcast_S850000_S850000x1_0 Cert.ReferenceIdeal.Gen.bcast_S850000_S850000x1_0
    Cert.ReferenceIdeal.Gen.bcast_S850000x1_S850000x256_0_1 Cert.ReferenceIdeal.Gen.bcast_S256_S1x256_1 Cert.ReferenceIdeal.Gen.bcast_S1x256_S50000x256_0_1
    Cert.ReferenceIdeal.scatter_S50000x128_S850000x1_S850000x128_1_0_0_1 rfl rfl rfl rfl
    Cert.ReferenceIdeal.gather_S50000x128_S850000x1_S850000x128_1_0_n_n_0_1_1128 rfl rfl rfl rfl rfl rfl rfl
    Cert.ReferenceIdeal.Gen.bcast_S_S50000x128 Cert.ReferenceIdeal.Gen.bcast_S850000_S850000x1_0 Cert.ReferenceIdeal.Gen.bcast_S850000_S850000x1_0 Cert.ReferenceIdeal.Gen.bcast_S850000_S850000x1_0
    Cert.ReferenceIdeal.Gen.bcast_S850000x1_S850000x128_0_1 Cert.ReferenceIdeal.Gen.bcast_S128_S1x128_1 Cert.ReferenceIdeal.Gen.bcast_S1x128_S50000x128_0_1
    (prod1 m ρ c) (val_main_v88 (F := Ideal) (aX m c) (aE m c) (aW1 m c) (aB1 m c) (aWls m c)) (bcat m c) (aBls m c)
    (val_main_v6 (F := Ideal) (aE m c)) (val_main_v35 (F := Ideal) (aE m c)) (val_main_v30 (F := Ideal) (aE m c))
    (fun r q' => prod1_right m ρ c r q') (fun q' => cat_right _ _ q') n q

/-! ## The result -/

/-- The kernel program's result buffer holds the reference's result, as a function of the eight arguments. -/
theorem result_eq (c : Dev nD) : W9 m ρ c (Proc.devRef .tc main_v71)
    = val_main_v130 (F := Ideal) (aX m c) (aE m c) (aW1 m c) (aB1 m c) (aWmu m c) (aBmu m c) (aWls m c) (aBls m c) := by
  rw [W9_out, W8_prod, W8_bcat, ref_out]
  show stack (extractStridedSlice S50000x128 ![0, 0] (layer256 (prod1 m ρ c) (aE m c) (bcat m c)) slices_S50000x256_S50000x128_0_0)
      (extractStridedSlice S50000x128 ![0, 128] (layer256 (prod1 m ρ c) (aE m c) (bcat m c)) slices_S50000x256_S50000x128_0_128) = _
  rw [head1_eq, head2_eq]

end Cert.Bridge

end
-- ==== Proof.lean ====
/-
  The kernel program and its reference compute the same two-layer graph convolution.

  Every node's features are multiplied by a weight matrix; along every edge (a self-loop added at every node) the source
  node's row of the product, scaled by  dinv(src) · dinv(dst)  (dinv the inverse square root of a node's in-degree, 0 at
  an isolated node), is added into the destination node's row; a bias row is added. The hidden layer is this
  convolution rectified; the result stacks two such convolutions of the hidden layer, one per head.

  The kernel program takes the two matrix products in Pallas regions of 25 row blocks each and runs the second layer
  once at 256 columns over the two heads' weights joined side by side, then cuts the result in two; the reference runs
  it once per head at 128 columns. At the ideal instance a region's product and the host's general product are the same
  sum over the contracted axis, and the aggregation acts on every column by itself, so the left and right halves of the
  wide layer are the two heads (Proof/Bridge.lean). The frames of the two kernel programs are the generated frame
  certificates; the reference's frame and value come from its run read back (Proof/RefRun.lean); the kernel program's
  value is its launch with the result buffer read beside the arguments (Proof/RunValue.lean), its buffers read boundary
  by boundary (Proof/KernelFold.lean) and the two regions' arrays as whole products (Proof/MatmulRegion.lean). The
  idealization rewrote no operation, so `preserves` asks nothing. No step uses that the inputs are finite.
-/
import proofs.«142886_j60593398612125_1_alg».proof.Defs
import proofs.«142886_j60593398612125_1_alg».proof.Proof.Gen.Kernel
import proofs.«142886_j60593398612125_1_alg».proof.Proof.Gen.Kernel.Skeleton
import proofs.«142886_j60593398612125_1_alg».proof.Proof.Gen.Kernel.Launch
import proofs.«142886_j60593398612125_1_alg».proof.Proof.Gen.Kernel.Points
import proofs.«142886_j60593398612125_1_alg».proof.Proof.Gen.Kernel.Frame
import proofs.«142886_j60593398612125_1_alg».proof.Proof.Gen.KernelIdeal
import proofs.«142886_j60593398612125_1_alg».proof.Proof.Gen.KernelIdeal.Skeleton
import proofs.«142886_j60593398612125_1_alg».proof.Proof.Gen.KernelIdeal.Launch
import proofs.«142886_j60593398612125_1_alg».proof.Proof.Gen.KernelIdeal.Points
import proofs.«142886_j60593398612125_1_alg».proof.Proof.Gen.KernelIdeal.Frame
import proofs.«142886_j60593398612125_1_alg».proof.Proof.Gen.ReferenceIdeal
import proofs.«142886_j60593398612125_1_alg».proof.Proof.Gen.Pre_finite_inputs
import proofs.«142886_j60593398612125_1_alg».proof.Proof.RefRun
import proofs.«142886_j60593398612125_1_alg».proof.Proof.RefRead
import proofs.«142886_j60593398612125_1_alg».proof.Proof.RunValue
import proofs.«142886_j60593398612125_1_alg».proof.Proof.Bridge
import Idealize.ShloMosaic.Adequacy
import Idealize.ShloMosaic.Init

noncomputable section

namespace Cert.Proof

open Idealize.ShloMosaic Idealize.SL.Sem

/-- The word-level kernel program runs and leaves its arguments as launched: the generated frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eight arguments both programs end, the kernel program's result buffer at the
    last boundary's contents and the reference's at its composed term; both are one function of the arguments
    (`Bridge.result_eq`). -/
theorem algebraic : Cert.algebraic_KernelIdeal_ReferenceIdeal := by
  intro m ρ m' ρ' _ hagree
  refine ⟨fun c => Cert.KernelIdeal.Gen.W9 m ρ c (Proc.devRef .tc Cert.KernelIdeal.main_v71),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v130 m' c = Cert.KernelIdeal.Gen.W9 m ρ c (Proc.devRef .tc Cert.KernelIdeal.main_v71)
  rw [Cert.ReferenceIdeal.ReadP.val_main_v130_eq, Cert.Bridge.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
